-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S256 .f32) (main_arg6 : FVec F S256x128 .f32) (main_arg7 : FVec F S128 .f32) (main_arg8 : FVec F S128x2 .f32) (main_arg9 : FVec F S2 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S10000x512 .f32) (main_arg1 : IVec S2x160000 32) (main_arg2 : FVec F S512x512 .f32) (main_arg3 : FVec F S512 .f32) (main_arg4 : FVec F S1024x256 .f32) (main_arg5 : FVec F S256 .f32) (main_arg6 : FVec F S256x128 .f32) (main_arg7 : FVec F S128 .f32) (main_arg8 : FVec F S128x2 .f32) (main_arg9 : FVec F S2 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x256 .f32 := Host.absf main_arg4
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg5 main_arg6 main_arg7 main_arg8 main_arg9 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S512x256 : Shape := ⟨2, ![512, 256]⟩
abbrev S1x512 : Shape := ⟨2, ![1, 512]⟩
abbrev S10000x256 : Shape := ⟨2, ![10000, 256]⟩
abbrev S1000x512 : Shape := ⟨2, ![1000, 512]⟩
abbrev S1000x256 : Shape := ⟨2, ![1000, 256]⟩
abbrev S10000 : Shape := ⟨1, ![10000]⟩
abbrev S170000 : Shape := ⟨1, ![170000]⟩
abbrev S170000x1 : Shape := ⟨2, ![170000, 1]⟩
abbrev S170000x256 : Shape := ⟨2, ![170000, 256]⟩
abbrev S1x256 : Shape := ⟨2, ![1, 256]⟩
abbrev S1x128 : Shape := ⟨2, ![1, 128]⟩
abbrev S1x2 : Shape := ⟨2, ![1, 2]⟩
abbrev S10000x2 : Shape := ⟨2, ![10000, 2]⟩
abbrev S1000x2 : Shape := ⟨2, ![1000, 2]⟩
abbrev S1000x128 : Shape := ⟨2, ![1000, 128]⟩

abbrev nBuf : Space → Nat
  | .hbm => 90
  | .vmem => 19
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S1024x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x160000, .i32⟩
  | .hbm, ⟨11, _⟩ => ⟨S160000, .i32⟩
  | .hbm, ⟨12, _⟩ => ⟨S1x160000, .i32⟩
  | .hbm, ⟨13, _⟩ => ⟨S160000, .i32⟩
  | .hbm, ⟨14, _⟩ => ⟨S_, .i32⟩
  | .hbm, ⟨15, _⟩ => ⟨S160000, .i32⟩
  | .hbm, ⟨16, _⟩ => ⟨S160000, .i1⟩
  | .hbm, ⟨17, _⟩ => ⟨S_, .i32⟩
  | .hbm, ⟨18, _⟩ => ⟨S160000, .i32⟩
  | .hbm, ⟨19, _⟩ => ⟨S160000, .i32⟩
  | .hbm, ⟨20, _⟩ => ⟨S160000, .i32⟩
  | .hbm, ⟨21, _⟩ => ⟨S160000x1, .i32⟩
  | .hbm, ⟨22, _⟩ => ⟨S160000x512, .f32⟩
  | .hbm, ⟨23, _⟩ => ⟨S_, .f32⟩
  | .hbm, ⟨24, _⟩ => ⟨S10000x512, .f32⟩
  | .hbm, ⟨25, _⟩ => ⟨S160000x1, .i32⟩
  | .hbm, ⟨26, _⟩ => ⟨S10000x512, .f32⟩
  | .hbm, ⟨27, _⟩ => ⟨S512x256, .f32⟩
  | .hbm, ⟨28, _⟩ => ⟨S512x256, .f32⟩
  | .hbm, ⟨29, _⟩ => ⟨S1x512, .f32⟩
  | .hbm, ⟨30, _⟩ => ⟨S10000x256, .f32⟩
  | .hbm, ⟨31, _⟩ => ⟨S10000, .i32⟩
  | .hbm, ⟨32, _⟩ => ⟨S170000, .i32⟩
  | .hbm, ⟨33, _⟩ => ⟨S170000, .i32⟩
  | .hbm, ⟨34, _⟩ => ⟨S_, .f32⟩
  | .hbm, ⟨35, _⟩ => ⟨S170000, .f32⟩
  | .hbm, ⟨36, _⟩ => ⟨S_, .f32⟩
  | .hbm, ⟨37, _⟩ => ⟨S10000, .f32⟩
  | .hbm, ⟨38, _⟩ => ⟨S170000x1, .i32⟩
  | .hbm, ⟨39, _⟩ => ⟨S10000, .f32⟩
  | .hbm, ⟨40, _⟩ => ⟨S_, .f32⟩
  | .hbm, ⟨41, _⟩ => ⟨S10000, .f32⟩
  | .hbm, ⟨42, _⟩ => ⟨S10000, .i1⟩
  | .hbm, ⟨43, _⟩ => ⟨S_, .f32⟩
  | .hbm, ⟨44, _⟩ => ⟨S10000, .f32⟩
  | .hbm, ⟨45, _⟩ => ⟨S10000, .f32⟩
  | .hbm, ⟨46, _⟩ => ⟨S10000, .f32⟩
  | .hbm, ⟨47, _⟩ => ⟨S_, .f32⟩
  | .hbm, ⟨48, _⟩ => ⟨S_, .f32⟩
  | .hbm, ⟨49, _⟩ => ⟨S10000, .f32⟩
  | .hbm, ⟨50, _⟩ => ⟨S10000, .f32⟩
  | .hbm, ⟨51, _⟩ => ⟨S_, .i32⟩
  | .hbm, ⟨52, _⟩ => ⟨S170000, .i32⟩
  | .hbm, ⟨53, _⟩ => ⟨S170000, .i1⟩
  | .hbm, ⟨54, _⟩ => ⟨S_, .i32⟩
  | .hbm, ⟨55, _⟩ => ⟨S170000, .i32⟩
  | .hbm, ⟨56, _⟩ => ⟨S170000, .i32⟩
  | .hbm, ⟨57, _⟩ => ⟨S170000, .i32⟩
  | .hbm, ⟨58, _⟩ => ⟨S170000x1, .i32⟩
  | .hbm, ⟨59, _⟩ => ⟨S170000, .f32⟩
  | .hbm, ⟨60, _⟩ => ⟨S_, .i32⟩
  | .hbm, ⟨61, _⟩ => ⟨S170000, .i32⟩
  | .hbm, ⟨62, _⟩ => ⟨S170000, .i1⟩
  | .hbm, ⟨63, _⟩ => ⟨S_, .i32⟩
  | .hbm, ⟨64, _⟩ => ⟨S170000, .i32⟩
  | .hbm, ⟨65, _⟩ => ⟨S170000, .i32⟩
  | .hbm, ⟨66, _⟩ => ⟨S170000, .i32⟩
  | .hbm, ⟨67, _⟩ => ⟨S170000x1, .i32⟩
  | .hbm, ⟨68, _⟩ => ⟨S170000, .f32⟩
  | .hbm, ⟨69, _⟩ => ⟨S170000, .f32⟩
  | .hbm, ⟨70, _⟩ => ⟨S_, .i32⟩
  | .hbm, ⟨71, _⟩ => ⟨S170000, .i32⟩
  | .hbm, ⟨72, _⟩ => ⟨S170000, .i1⟩
  | .hbm, ⟨73, _⟩ => ⟨S_, .i32⟩
  | .hbm, ⟨74, _⟩ => ⟨S170000, .i32⟩
  | .hbm, ⟨75, _⟩ => ⟨S170000, .i32⟩
  | .hbm, ⟨76, _⟩ => ⟨S170000, .i32⟩
  | .hbm, ⟨77, _⟩ => ⟨S170000x1, .i32⟩
  | .hbm, ⟨78, _⟩ => ⟨S170000x256, .f32⟩
  | .hbm, ⟨79, _⟩ => ⟨S170000x1, .f32⟩
  | .hbm, ⟨80, _⟩ => ⟨S170000x256, .f32⟩
  | .hbm, ⟨81, _⟩ => ⟨S170000x256, .f32⟩
  | .hbm, ⟨82, _⟩ => ⟨S_, .f32⟩
  | .hbm, ⟨83, _⟩ => ⟨S10000x256, .f32⟩
  | .hbm, ⟨84, _⟩ => ⟨S170000x1, .i32⟩
  | .hbm, ⟨85, _⟩ => ⟨S10000x256, .f32⟩
  | .hbm, ⟨86, _⟩ => ⟨S1x256, .f32⟩
  | .hbm, ⟨87, _⟩ => ⟨S1x128, .f32⟩
  | .hbm, ⟨88, _⟩ => ⟨S1x2, .f32⟩
  | .hbm, ⟨89, _⟩ => ⟨S10000x2, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S1x512, .f32⟩
  | .local _ .vmem, ⟨6, _⟩ => ⟨S512x256, .f32⟩
  | .local _ .vmem, ⟨7, _⟩ => ⟨S512x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1x256, .f32⟩
  | .local _ .vmem, ⟨13, _⟩ => ⟨S256x128, .f32⟩
  | .local _ .vmem, ⟨14, _⟩ => ⟨S1x128, .f32⟩
  | .local _ .vmem, ⟨15, _⟩ => ⟨S128x2, .f32⟩
  | .local _ .vmem, ⟨16, _⟩ => ⟨S1x2, .f32⟩
  | .local _ .vmem, ⟨17, _⟩ => ⟨S1000x2, .f32⟩
  | .local _ .vmem, ⟨18, _⟩ => ⟨S1000x2, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  slices_S1024x256_S512x256_0_0 : S1024x256.Slices ![0, 0] S512x256
  slices_S1024x256_S512x256_512_0 : S1024x256.Slices ![512, 0] S512x256
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1000x256_S1000x256_0_0 : ∀ a, (![0, 0] : Fin 2 → Nat) a + S1000x256.size a ≤ S1000x256.size a
  h_S1000x256 : 0 < S1000x256.numel
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  shapeCasts_S256_S1x256 : S256.ShapeCasts S1x256
  shapeCasts_S128_S1x128 : S128.ShapeCasts S1x128
  shapeCasts_S2_S1x2 : S2.ShapeCasts S1x2
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S1000x512_S512x512_S1000x512_1_0_0_1_n_n_wf : DotDims.WF S1000x512 S512x512 S1000x512 [1] [0] [0] [1] [] []
  dot_S1000x512_S512x256_S1000x256_1_0_0_1_n_n_wf : DotDims.WF S1000x512 S512x256 S1000x256 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1
  dot_S1000x256_S256x128_S1000x128_1_0_0_1_n_n_wf : DotDims.WF S1000x256 S256x128 S1000x128 [1] [0] [0] [1] [] []
  dot_S1000x128_S128x2_S1000x2_1_0_0_1_n_n_wf : DotDims.WF S1000x128 S128x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S10000x512.size a
  hwx0_1 : ∀ i : grid0.Coords, EltTy.bits .f32 = 32 ∨ (Rect.block (s := S10000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S10000x256.size a
  hwx0_6 : ∀ i : grid0.Coords, EltTy.bits .f32 = 32 ∨ (Rect.block (s := S10000x256) S1000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x2.size a ≤ S128x2.size a
  hwx1_4 : ∀ i : grid1.Coords, EltTy.bits .f32 = 32 ∨ (Rect.block (s := S128x2) S128x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2.size a ≤ S1x2.size a
  hwx1_5 : ∀ i : grid1.Coords, EltTy.bits .f32 = 32 ∨ (Rect.block (s := S1x2) S1x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x2.size a ≤ S10000x2.size a
  hwx1_6 : ∀ i : grid1.Coords, EltTy.bits .f32 = 32 ∨ (Rect.block (s := S10000x2) S1000x2.size (cc1_transform_6 i) (hinb1_6 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x2_S1000x2_1_0_0_1_n_n : DotDims S1000x128 S128x2 S1000x2 where
  lhsContracting := [1]
  rhsContracting := [0]
  lhsNonContracting := [0]
  rhsNonContracting := [1]
  lhsBatch := []
  rhsBatch := []
  wf := dot_S1000x128_S128x2_S1000x2_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v58) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S1x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v62) S1000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩
abbrev S10000x1024 : Shape := ⟨2, ![10000, 1024]⟩
abbrev S10000x256 : Shape := ⟨2, ![10000, 256]⟩
abbrev S10000 : Shape := ⟨1, ![10000]⟩
abbrev S170000 : Shape := ⟨1, ![170000]⟩
abbrev S170000x1 : Shape := ⟨2, ![170000, 1]⟩
abbrev S170000x256 : Shape := ⟨2, ![170000, 256]⟩
abbrev S1x256 : Shape := ⟨2, ![1, 256]⟩
abbrev S10000x128 : Shape := ⟨2, ![10000, 128]⟩
abbrev S1x128 : Shape := ⟨2, ![1, 128]⟩
abbrev S10000x2 : Shape := ⟨2, ![10000, 2]⟩
abbrev S1x2 : Shape := ⟨2, ![1, 2]⟩

abbrev nBuf : Space → Nat
  | .hbm => 102
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S1024x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x160000, .i32⟩
  | .hbm, ⟨11, _⟩ => ⟨S160000, .i32⟩
  | .hbm, ⟨12, _⟩ => ⟨S1x160000, .i32⟩
  | .hbm, ⟨13, _⟩ => ⟨S160000, .i32⟩
  | .hbm, ⟨14, _⟩ => ⟨S_, .i32⟩
  | .hbm, ⟨15, _⟩ => ⟨S160000, .i32⟩
  | .hbm, ⟨16, _⟩ => ⟨S160000, .i1⟩
  | .hbm, ⟨17, _⟩ => ⟨S_, .i32⟩
  | .hbm, ⟨18, _⟩ => ⟨S160000, .i32⟩
  | .hbm, ⟨19, _⟩ => ⟨S160000, .i32⟩
  | .hbm, ⟨20, _⟩ => ⟨S160000, .i32⟩
  | .hbm, ⟨21, _⟩ => ⟨S160000x1, .i32⟩
  | .hbm, ⟨22, _⟩ => ⟨S160000x512, .f32⟩
  | .hbm, ⟨23, _⟩ => ⟨S_, .f32⟩
  | .hbm, ⟨24, _⟩ => ⟨S10000x512, .f32⟩
  | .hbm, ⟨25, _⟩ => ⟨S160000x1, .i32⟩
  | .hbm, ⟨26, _⟩ => ⟨S10000x512, .f32⟩
  | .hbm, ⟨27, _⟩ => ⟨S10000x512, .f32⟩
  | .hbm, ⟨28, _⟩ => ⟨S1x512, .f32⟩
  | .hbm, ⟨29, _⟩ => ⟨S10000x512, .f32⟩
  | .hbm, ⟨30, _⟩ => ⟨S10000x512, .f32⟩
  | .hbm, ⟨31, _⟩ => ⟨S10000x1024, .f32⟩
  | .hbm, ⟨32, _⟩ => ⟨S10000x256, .f32⟩
  | .hbm, ⟨33, _⟩ => ⟨S10000, .i32⟩
  | .hbm, ⟨34, _⟩ => ⟨S170000, .i32⟩
  | .hbm, ⟨35, _⟩ => ⟨S170000, .i32⟩
  | .hbm, ⟨36, _⟩ => ⟨S_, .f32⟩
  | .hbm, ⟨37, _⟩ => ⟨S170000, .f32⟩
  | .hbm, ⟨38, _⟩ => ⟨S_, .f32⟩
  | .hbm, ⟨39, _⟩ => ⟨S10000, .f32⟩
  | .hbm, ⟨40, _⟩ => ⟨S170000x1, .i32⟩
  | .hbm, ⟨41, _⟩ => ⟨S10000, .f32⟩
  | .hbm, ⟨42, _⟩ => ⟨S_, .f32⟩
  | .hbm, ⟨43, _⟩ => ⟨S10000, .f32⟩
  | .hbm, ⟨44, _⟩ => ⟨S10000, .i1⟩
  | .hbm, ⟨45, _⟩ => ⟨S_, .f32⟩
  | .hbm, ⟨46, _⟩ => ⟨S10000, .f32⟩
  | .hbm, ⟨47, _⟩ => ⟨S10000, .f32⟩
  | .hbm, ⟨48, _⟩ => ⟨S10000, .f32⟩
  | .hbm, ⟨49, _⟩ => ⟨S_, .f32⟩
  | .hbm, ⟨50, _⟩ => ⟨S_, .f32⟩
  | .hbm, ⟨51, _⟩ => ⟨S10000, .f32⟩
  | .hbm, ⟨52, _⟩ => ⟨S10000, .f32⟩
  | .hbm, ⟨53, _⟩ => ⟨S_, .i32⟩
  | .hbm, ⟨54, _⟩ => ⟨S170000, .i32⟩
  | .hbm, ⟨55, _⟩ => ⟨S170000, .i1⟩
  | .hbm, ⟨56, _⟩ => ⟨S_, .i32⟩
  | .hbm, ⟨57, _⟩ => ⟨S170000, .i32⟩
  | .hbm, ⟨58, _⟩ => ⟨S170000, .i32⟩
  | .hbm, ⟨59, _⟩ => ⟨S170000, .i32⟩
  | .hbm, ⟨60, _⟩ => ⟨S170000x1, .i32⟩
  | .hbm, ⟨61, _⟩ => ⟨S170000, .f32⟩
  | .hbm, ⟨62, _⟩ => ⟨S_, .i32⟩
  | .hbm, ⟨63, _⟩ => ⟨S170000, .i32⟩
  | .hbm, ⟨64, _⟩ => ⟨S170000, .i1⟩
  | .hbm, ⟨65, _⟩ => ⟨S_, .i32⟩
  | .hbm, ⟨66, _⟩ => ⟨S170000, .i32⟩
  | .hbm, ⟨67, _⟩ => ⟨S170000, .i32⟩
  | .hbm, ⟨68, _⟩ => ⟨S170000, .i32⟩
  | .hbm, ⟨69, _⟩ => ⟨S170000x1, .i32⟩
  | .hbm, ⟨70, _⟩ => ⟨S170000, .f32⟩
  | .hbm, ⟨71, _⟩ => ⟨S170000, .f32⟩
  | .hbm, ⟨72, _⟩ => ⟨S_, .i32⟩
  | .hbm, ⟨73, _⟩ => ⟨S170000, .i32⟩
  | .hbm, ⟨74, _⟩ => ⟨S170000, .i1⟩
  | .hbm, ⟨75, _⟩ => ⟨S_, .i32⟩
  | .hbm, ⟨76, _⟩ => ⟨S170000, .i32⟩
  | .hbm, ⟨77, _⟩ => ⟨S170000, .i32⟩
  | .hbm, ⟨78, _⟩ => ⟨S170000, .i32⟩
  | .hbm, ⟨79, _⟩ => ⟨S170000x1, .i32⟩
  | .hbm, ⟨80, _⟩ => ⟨S170000x256, .f32⟩
  | .hbm, ⟨81, _⟩ => ⟨S170000x1, .f32⟩
  | .hbm, ⟨82, _⟩ => ⟨S170000x256, .f32⟩
  | .hbm, ⟨83, _⟩ => ⟨S170000x256, .f32⟩
  | .hbm, ⟨84, _⟩ => ⟨S_, .f32⟩
  | .hbm, ⟨85, _⟩ => ⟨S10000x256, .f32⟩
  | .hbm, ⟨86, _⟩ => ⟨S170000x1, .i32⟩
  | .hbm, ⟨87, _⟩ => ⟨S10000x256, .f32⟩
  | .hbm, ⟨88, _⟩ => ⟨S1x256, .f32⟩
  | .hbm, ⟨89, _⟩ => ⟨S10000x256, .f32⟩
  | .hbm, ⟨90, _⟩ => ⟨S10000x256, .f32⟩
  | .hbm, ⟨91, _⟩ => ⟨S10000x128, .f32⟩
  | .hbm, ⟨92, _⟩ => ⟨S1x128, .f32⟩
  | .hbm, ⟨93, _⟩ => ⟨S10000x128, .f32⟩
  | .hbm, ⟨94, _⟩ => ⟨S10000x128, .f32⟩
  | .hbm, ⟨95, _⟩ => ⟨S_, .f32⟩
  | .hbm, ⟨96, _⟩ => ⟨S10000x128, .f32⟩
  | .hbm, ⟨97, _⟩ => ⟨S10000x128, .f32⟩
  | .hbm, ⟨98, _⟩ => ⟨S10000x2, .f32⟩
  | .hbm, ⟨99, _⟩ => ⟨S1x2, .f32⟩
  | .hbm, ⟨100, _⟩ => ⟨S10000x2, .f32⟩
  | .hbm, ⟨101, _⟩ => ⟨S10000x2, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_call1_cst : Ref sig .tc := ⟨.hbm, 95, rfl⟩
abbrev main_call1_v0 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  concatenates_S10000x512_S10000x512_S10000x1024_d1 : Shape.Concatenates [S10000x512, S10000x512] S10000x1024 1
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []
  dot_S10000x1024_S1024x256_S10000x256_1_0_0_1_n_n_wf : DotDims.WF S10000x1024 S1024x256 S10000x256 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1
  dot_S10000x256_S256x128_S10000x128_1_0_0_1_n_n_wf : DotDims.WF S10000x256 S256x128 S10000x128 [1] [0] [0] [1] [] []
  dot_S10000x128_S128x2_S10000x2_1_0_0_1_n_n_wf : DotDims.WF S10000x128 S128x2 S10000x2 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf

class Facts : Prop extends Facts₀ where

variable [Facts]
-- ==== Proof.LibDense.lean ====
/-
  Dense layers over the extended reals, index by index.

  A matrix is a function of a rank-2 index into the extended reals. `mm A B` is the textbook product: entry (a, b) is
  the sum over the shared coordinate c of A (a, c) · B (c, b). `biasRelu z A β` adds the entry β c to every row of A at
  column c and takes the larger of the result and z (the rectifier when z is zero). `plusScalar X s` adds one number to
  every entry. `rowBlock R t A` is the block of R consecutive rows of A that starts at row t · R, all columns kept.

  Facts proved here:
  * the kernel's matrix product into a zero accumulator and the host's plain dot_general are both `mm`, at the exact
    arithmetic of the extended reals (the sum over the contracted coordinate written over its range of numbers);
  * each of the three layers acts row by row, so it commutes with taking a block of rows: a layer of a row block is the
    row block of the layer. That is what lets a product computed block of rows by block of rows be read as ONE product;
  * every row of a matrix of M rows lies in exactly the block t = row / R when R divides the rows evenly.
-/
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws

noncomputable section

namespace Cert.Dense

open Idealize.ShloMosaic Idealize.ShloMosaic.ValueIdx

/-- A matrix of extended reals with `m` rows and `n` columns. -/
abbrev Mat (m n : Nat) := FVec Ideal ⟨2, ![m, n]⟩ .f32

variable {m k n : Nat}

/-- The product of an m×k and a k×n matrix: entry (a, b) is ∑_c A (a, c) · B (c, b). -/
def mm (A : Mat m k) (B : Mat k n) : Mat m n :=
  fun i => ∑ c : Fin k, A (ix2 (i 0 : Fin m) c) * B (ix2 c (i 1 : Fin n))

theorem mm_apply (A : Mat m k) (B : Mat k n) (a : Fin m) (b : Fin n) :
    mm A B (ix2 a b) = ∑ c : Fin k, A (ix2 a c) * B (ix2 c b) := rfl

/-- Row a of A, shifted by β along the columns, then bounded below by z. -/
def biasRelu (z : Ideal .f32) (A : Mat m k) (β : Fin k → Ideal .f32) : Mat m k :=
  fun j => max (A j + β (j 1 : Fin k)) z

/-- One number added to every entry. -/
def plusScalar (X : Mat m n) (s : Ideal .f32) : Mat m n := fun i => X i + s

/-- The host's plain dot_general is the product, entry by entry. -/
theorem dotGeneral_plain_eq_mm {φ₁ φ₂ : FTy} (prec : Option ContractPrecision)
    (A : FVec Ideal ⟨2, ![m, k]⟩ φ₁) (B : FVec Ideal ⟨2, ![k, n]⟩ φ₂) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The kernel's plain matrix product accumulated into zeros is the product, entry by entry. -/
theorem matmul_plain_zero_eq_mm {φ₁ φ₂ : FTy} (prec : Option ContractPrecision)
    (A : FVec Ideal ⟨2, ![m, k]⟩ φ₁) (B : FVec Ideal ⟨2, ![k, n]⟩ φ₂) :
    matmul (DotDims.plain m k n) prec A B (constant ⟨2, ![m, n]⟩ .f32 0x00000000#32) = mm A B :=
  (matmul_zero_eq_dotGeneral _ _ _ _).trans (dotGeneral_plain_eq_mm _ _ _)

/-! ## The kernel's spellings of the layers -/

/-- A one-row matrix laid along every row, read at an entry: the row's entry in that column. -/
theorem broadcastTo_oneRow_apply {α : Type} (x : (⟨2, ![1, n]⟩ : Shape).Idx → α)
    (hb : (⟨2, ![1, n]⟩ : Shape).Broadcasts ⟨2, ![m, n]⟩) (j : (⟨2, ![m, n]⟩ : Shape).Idx) :
    broadcastTo ⟨2, ![m, n]⟩ x hb j = x (ix2 (0 : Fin 1) (j 1 : Fin n)) := by
  refine broadcastTo_apply x hb j (ix2 (0 : Fin 1) (j 1 : Fin n)) ?_
  intro a
  match a with
  | ⟨0, _⟩ => rfl
  | ⟨1, _⟩ =>
    show (j 1).val = if n = 1 then 0 else (j 1).val
    split
    · have := (j 1).isLt; have e : (j 1).val < n := this; omega
    · rfl

/-- A vector of `n` entries reshaped to one row, read at an entry: the vector's entry of that column. -/
theorem shapeCast_row_apply {α : Type} (x : (⟨1, ![n]⟩ : Shape).Idx → α)
    (h : (⟨1, ![n]⟩ : Shape).ShapeCasts ⟨2, ![1, n]⟩) (b : Fin n) :
    shapeCast ⟨2, ![1, n]⟩ x h (ix2 (0 : Fin 1) b) = x (ix1 b) :=
  shapeCast_apply x h (ix2 (0 : Fin 1) b) (ix1 b) (by
    rw [Shape.rowMajor_val_one, Shape.rowMajor_val_two]
    show b.val = 0 * n + b.val
    omega)

/-- A block plus a one-row bias laid along its rows, bounded below by the splat of one word, is `biasRelu`. -/
theorem biasRelu_of_broadcast (A : Mat m k) (v : FVec Ideal ⟨2, ![1, k]⟩ .f32)
    (hb : (⟨2, ![1, k]⟩ : Shape).Broadcasts ⟨2, ![m, k]⟩) (z : BitVec 32) :
    maximumf (addf A (broadcastTo ⟨2, ![m, k]⟩ v hb)) (broadcast ⟨2, ![m, k]⟩ (Scalar.ofBits (F := Ideal) .f32 z))
      = biasRelu (Ideal.ofBits .f32 z) A (fun c => v (ix2 (0 : Fin 1) c)) := by
  funext j
  show max (A j + broadcastTo ⟨2, ![m, k]⟩ v hb j) _ = max (A j + v (ix2 (0 : Fin 1) (j 1 : Fin k))) _
  rw [broadcastTo_oneRow_apply]
  rfl

/-- A one-column block plus the splat of a one-entry matrix along its rows is `plusScalar`. -/
theorem plusScalar_of_broadcast (X : Mat m 1) (v : FVec Ideal ⟨2, ![1, 1]⟩ .f32)
    (hb : (⟨2, ![1, 1]⟩ : Shape).Broadcasts ⟨2, ![m, 1]⟩) :
    addf X (broadcastTo ⟨2, ![m, 1]⟩ v hb) = plusScalar X (v (ix2 (0 : Fin 1) (0 : Fin 1))) := by
  funext j
  show X j + broadcastTo ⟨2, ![m, 1]⟩ v hb j = X j + v (ix2 (0 : Fin 1) (0 : Fin 1))
  rw [broadcastTo_oneRow_apply]
  have e : (j 1 : Fin 1) = (0 : Fin 1) :=
    Fin.ext (by have := (j 1).isLt; have e' : (j 1).val < 1 := this; show (j 1).val = 0; omega)
  rw [e]

/-! ## Blocks of rows -/

/-- Rows t·R … t·R + R − 1 of a matrix of M rows (they exist: `h`), every column. -/
def rowBlock {M : Nat} (R t : Nat) (h : t * R + R ≤ M) (A : Mat M k) : Mat R k :=
  fun y => A (ix2 (⟨t * R + (y 0).val, by have := (y 0).isLt; have e : (y 0).val < R := this; omega⟩ : Fin M) (y 1 : Fin k))

variable {M : Nat} (R t : Nat) (h : t * R + R ≤ M)

/-- The product acts row by row: the product of a block of rows is that block of rows of the product. -/
theorem mm_rowBlock (A : Mat M k) (B : Mat k n) : mm (rowBlock R t h A) B = rowBlock R t h (mm A B) := rfl

theorem biasRelu_rowBlock (z : Ideal .f32) (A : Mat M k) (β : Fin k → Ideal .f32) :
    biasRelu z (rowBlock R t h A) β = rowBlock R t h (biasRelu z A β) := rfl

theorem plusScalar_rowBlock (X : Mat M n) (s : Ideal .f32) :
    plusScalar (rowBlock R t h X) s = rowBlock R t h (plusScalar X s) := rfl

end Cert.Dense

end
-- ==== Proof.Layers.lean ====
/-
  The two dense stages of the graph network, as functions of whole matrices over the extended reals.

  `addRow A β` adds the number β c to every row of A at column c; `madd A B` is the entrywise sum.

  The ENCODE stage takes the node features x, their neighbour sums agg, the inner weight fW with its bias fb,
  and the two halves g1, g2 of the outer weight, and returns

      x · g1  +  (agg · fW + fb) · g2 ,

  which is the product of the row-wise concatenation [x | agg · fW + fb] with g1 stacked on g2.

  The DECODE stage takes the aggregated activations raw, the bias gb, and the two layers (d1W, d1b), (d2W, d2b), and returns

      max ((raw + gb) · d1W + d1b, 0) · d2W + d2b .

  Each stage acts on every row by itself, so a stage applied to a block of consecutive rows is that block of rows of
  the stage applied to the whole matrix (`enc_rowBlock`, `dec_rowBlock`).
-/
import proofs.«123440_j62758062129644_1_alg».proof.Proof.LibDense

noncomputable section

namespace Cert.Gin

open Idealize.ShloMosaic Idealize.ShloMosaic.ValueIdx Cert.Dense

variable {M k n : Nat}

/-- β c added to every row of A at column c. -/
def addRow (A : Mat M k) (β : Fin k → Ideal .f32) : Mat M k := fun j => A j + β (j 1 : Fin k)

/-- The entrywise sum of two matrices. -/
def madd (A B : Mat M n) : Mat M n := fun j => A j + B j

/-- The encode stage: x · g1 + (agg · fW + fb) · g2. -/
def enc (x agg : Mat M 512) (fW : Mat 512 512) (fb : Fin 512 → Ideal .f32) (g1 g2 : Mat 512 256) : Mat M 256 :=
  madd (mm x g1) (mm (addRow (mm agg fW) fb) g2)

/-- The decode stage: max ((raw + gb) · d1W + d1b, 0) · d2W + d2b. -/
def dec (raw : Mat M 256) (gb : Fin 256 → Ideal .f32) (d1W : Mat 256 128) (d1b : Fin 128 → Ideal .f32)
    (d2W : Mat 128 2) (d2b : Fin 2 → Ideal .f32) : Mat M 2 :=
  addRow (mm (biasRelu 0 (mm (addRow raw gb) d1W) d1b) d2W) d2b

variable (R t : Nat) (h : t * R + R ≤ M)

theorem addRow_rowBlock (A : Mat M k) (β : Fin k → Ideal .f32) :
    addRow (rowBlock R t h A) β = rowBlock R t h (addRow A β) := rfl

theorem madd_rowBlock (A B : Mat M n) :
    madd (rowBlock R t h A) (rowBlock R t h B) = rowBlock R t h (madd A B) := rfl

/-- The encode stage of a block of rows is that block of rows of the encode stage. -/
theorem enc_rowBlock (x agg : Mat M 512) (fW : Mat 512 512) (fb : Fin 512 → Ideal .f32) (g1 g2 : Mat 512 256) :
    enc (rowBlock R t h x) (rowBlock R t h agg) fW fb g1 g2 = rowBlock R t h (enc x agg fW fb g1 g2) := rfl

/-- The decode stage of a block of rows is that block of rows of the decode stage. -/
theorem dec_rowBlock (raw : Mat M 256) (gb : Fin 256 → Ideal .f32) (d1W : Mat 256 128) (d1b : Fin 128 → Ideal .f32)
    (d2W : Mat 128 2) (d2b : Fin 2 → Ideal .f32) :
    dec (rowBlock R t h raw) gb d1W d1b d2W d2b = rowBlock R t h (dec raw gb d1W d1b d2W d2b) := rfl

end Cert.Gin

end
-- ==== Proof.EncRegion.lean ====
/-
  The first dense region of the kernel's program, read as a value: whatever the region finds in its six input arrays, its
  result array ends holding the encode stage (Layers.lean) of them.

  The grid has ten points; point t works on rows 1000·t … 1000·t + 999 of the node features and of the neighbour sums, with the
  four weight arrays whole at every point, and writes rows 1000·t … 1000·t + 999 of the result. On one block the body's
  arithmetic is the encode stage of the block (changes of float format are the identity over the extended reals, and a
  matrix product accumulated into zeros is the plain product); the encode stage acts row by row, so the block it writes is
  that block of rows of the encode stage of the whole arrays; and the ten blocks cover the result array.
-/
import proofs.«123440_j62758062129644_1_alg».proof.Proof.Gen.KernelIdeal.Frame
import proofs.«123440_j62758062129644_1_alg».proof.Proof.Layers
import Idealize.ShloMosaic.Lib.Pipeline.Value
import Idealize.ShloMosaic.Lib.Tactic

set_option maxRecDepth 16384

noncomputable section

namespace Cert.KernelIdeal.EncV

open Cert.KernelIdeal Cert.KernelIdeal.Gen Idealize.ShloMosaic Idealize.ShloMosaic.TcCoe Idealize.SL.Sem Idealize.ShloMosaic.ValueIdx
open Idealize.ShloMosaic.Pipeline (Dat)
open Cert.Dense Cert.Gin

theorem hz : (![0, 0] : Fin 2 → Nat) = fun _ => 0 := funext fun a => by fin_cases a <;> rfl

/-- On whole blocks the body computes the encode stage: x·g1 + (agg·fW + fb)·g2, the bias being the one row of the fourth block. -/
theorem pay_enc (x0 x1 : FVec Ideal S1000x512 .f32) (x2 : FVec Ideal S512x512 .f32) (x3 : FVec Ideal S1x512 .f32)
    (x4 x5 : FVec Ideal S512x256 .f32) :
    k0_pay1 (F := Ideal) x0 x1 x2 x3 x4 x5 = enc (M := 1000) x0 x1 x2 (fun c => x3 (ix2 (0 : Fin 1) c)) x4 x5 := by
  have d1 : dot_S1000x512_S512x512_S1000x512_1_0_0_1_n_n = DotDims.plain 1000 512 512 := rfl
  have d2 : dot_S1000x512_S512x256_S1000x256_1_0_0_1_n_n = DotDims.plain 1000 512 256 := rfl
  have hb : addf (F := Ideal) (mm (m := 1000) x1 x2) (broadcastTo S1000x512 x3 broadcasts_S1x512_S1000x512)
      = addRow (mm (m := 1000) x1 x2) (fun c => x3 (ix2 (0 : Fin 1) c)) := by
    funext j
    show mm x1 x2 j + broadcastTo S1000x512 x3 broadcasts_S1x512_S1000x512 j = mm x1 x2 j + x3 (ix2 (0 : Fin 1) (j 1 : Fin 512))
    rw [broadcastTo_oneRow_apply]
  unfold k0_pay1
  dsimp only
  rw [d1, d2]
  simp only [shapeCast_self]
  show addf (F := Ideal) (matmul (F := Ideal) (DotDims.plain 1000 512 256) none x0 x4 (constant ⟨2, ![1000, 256]⟩ .f32 0x00000000#32))
      (matmul (F := Ideal) (DotDims.plain 1000 512 256) none
        (addf (F := Ideal) (matmul (F := Ideal) (DotDims.plain 1000 512 512) none x1 x2 (constant ⟨2, ![1000, 512]⟩ .f32 0x00000000#32))
          (broadcastTo S1000x512 x3 broadcasts_S1x512_S1000x512)) x5 (constant ⟨2, ![1000, 256]⟩ .f32 0x00000000#32)) = _
  rw [matmul_plain_zero_eq_mm, matmul_plain_zero_eq_mm, matmul_plain_zero_eq_mm, hb]
  rfl

variable (V : (c : Dev nD) → (b : Ref sig .tc) → Buf (Elt Ideal) ((c : Thread nD τ).loc b))

/-- The encode stage of the six arrays as the region finds them (the bias is the one row of the fourth). -/
abbrev encOf (c : Dev nD) : Mat 10000 256 :=
  enc (M := 10000) (V c main_arg0) (V c main_v13) (V c main_arg2) (fun k => V c main_v16 (ix2 (0 : Fin 1) k))
    (V c main_v14) (V c main_v15)

/-- The block indices over the grid: the two row-blocked inputs and the output move with the point along the rows,
    the four weight windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem rows_le (t : Fin cfg0.N) : t.val * 1000 + 1000 ≤ 10000 := by
  have h : t.val < 10 := lt_of_lt_of_eq t.isLt N_0
  omega

/-- Point t's block of the node features is rows 1000·t … 1000·t + 999 of the array. -/
theorem iblk_0 (c : Dev nD) (t : Fin cfg0.N) :
    (iblk0 V c 0 t : Mat 1000 512) = rowBlock 1000 t.val (rows_le t) (V c main_arg0) := by
  obtain ⟨e0, e1, -⟩ := idx_facts t
  funext y
  show V c main_arg0 (((cfg0.win 0).blk t).view.emb y) = V c main_arg0 _
  refine congrArg (V c main_arg0) (funext fun a => Fin.ext ?_)
  match a with
  | ⟨0, _⟩ => show win0_0.index t (0 : Fin 2) * 1000 + 1 * (y 0).val = t.val * 1000 + (y 0).val; rw [e0]; omega
  | ⟨1, _⟩ => show win0_0.index t (1 : Fin 2) * 512 + 1 * (y 1).val = (y 1).val; rw [e1]; omega

/-- Point t's block of the neighbour sums is rows 1000·t … 1000·t + 999 of the array. -/
theorem iblk_1 (c : Dev nD) (t : Fin cfg0.N) :
    (iblk0 V c 1 t : Mat 1000 512) = rowBlock 1000 t.val (rows_le t) (V c main_v13) := by
  obtain ⟨-, -, e0, e1, -⟩ := idx_facts t
  funext y
  show V c main_v13 (((cfg0.win 1).blk t).view.emb y) = V c main_v13 _
  refine congrArg (V c main_v13) (funext fun a => Fin.ext ?_)
  match a with
  | ⟨0, _⟩ => show win0_1.index t (0 : Fin 2) * 1000 + 1 * (y 0).val = t.val * 1000 + (y 0).val; rw [e0]; omega
  | ⟨1, _⟩ => show win0_1.index t (1 : Fin 2) * 512 + 1 * (y 1).val = (y 1).val; rw [e1]; omega

/-- Every point's block of a weight window is the whole array. -/
theorem iblk_2 (c : Dev nD) (t : Fin cfg0.N) : (iblk0 V c 2 t : Mat 512 512) = V c main_arg2 := by
  obtain ⟨-, -, -, -, e0, e1, -⟩ := idx_facts t
  funext y
  show V c main_arg2 (((cfg0.win 2).blk t).view.emb y) = V c main_arg2 y
  refine congrArg (V c main_arg2) (funext fun a => Fin.ext ?_)
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

theorem iblk_3 (c : Dev nD) (t : Fin cfg0.N) : (iblk0 V c 3 t : Mat 1 512) = V c main_v16 := by
  obtain ⟨-, -, -, -, -, -, e0, e1, -⟩ := idx_facts t
  funext y
  show V c main_v16 (((cfg0.win 3).blk t).view.emb y) = V c main_v16 y
  refine congrArg (V c main_v16) (funext fun a => Fin.ext ?_)
  match a with
  | ⟨0, _⟩ => show win0_3.index t (0 : Fin 2) * 1 + 1 * (y 0).val = (y 0).val; rw [e0]; omega
  | ⟨1, _⟩ => show win0_3.index t (1 : Fin 2) * 512 + 1 * (y 1).val = (y 1).val; rw [e1]; omega

theorem iblk_4 (c : Dev nD) (t : Fin cfg0.N) : (iblk0 V c 4 t : Mat 512 256) = V c main_v14 := by
  obtain ⟨-, -, -, -, -, -, -, -, e0, e1, -⟩ := idx_facts t
  funext y
  show V c main_v14 (((cfg0.win 4).blk t).view.emb y) = V c main_v14 y
  refine congrArg (V c main_v14) (funext fun a => Fin.ext ?_)
  match a with
  | ⟨0, _⟩ => show win0_4.index t (0 : Fin 2) * 512 + 1 * (y 0).val = (y 0).val; rw [e0]; omega
  | ⟨1, _⟩ => show win0_4.index t (1 : Fin 2) * 256 + 1 * (y 1).val = (y 1).val; rw [e1]; omega

theorem iblk_5 (c : Dev nD) (t : Fin cfg0.N) : (iblk0 V c 5 t : Mat 512 256) = V c main_v15 := by
  obtain ⟨-, -, -, -, -, -, -, -, -, -, e0, e1, -⟩ := idx_facts t
  funext y
  show V c main_v15 (((cfg0.win 5).blk t).view.emb y) = V c main_v15 y
  refine congrArg (V c main_v15) (funext fun a => Fin.ext ?_)
  match a with
  | ⟨0, _⟩ => show win0_5.index t (0 : Fin 2) * 512 + 1 * (y 0).val = (y 0).val; rw [e0]; omega
  | ⟨1, _⟩ => show win0_5.index t (1 : Fin 2) * 256 + 1 * (y 1).val = (y 1).val; rw [e1]; omega

/-- What point t writes back is rows 1000·t … 1000·t + 999 of the encode stage of the whole arrays. -/
theorem flushed_enc (c : Dev nD) (t : Fin cfg0.N) :
    (dat0 V c).flushed 6 t = ((cfg0.win 6).blk t).view.read (Elt Ideal) (encOf V c) := by
  show (cfg0.win 6).cut (grid0.coords t) ((dat0 V c).after 6 t) = _
  rw [after0_6]
  unfold out0_6
  rw [View.canon_unit_zero hz]
  simp only [View.ld_unit_zero (S := S1000x512) hz, View.ld_unit_zero (S := S512x512) hz, View.ld_unit_zero (S := S1x512) hz,
    View.ld_unit_zero (S := S512x256) hz]
  rw [pay_enc, iblk_0, iblk_1, iblk_2, iblk_3, iblk_4, iblk_5, enc_rowBlock]
  obtain ⟨-, -, -, -, -, -, -, -, -, -, -, -, e0, e1⟩ := idx_facts t
  funext j
  show encOf V c _ = encOf V c (((cfg0.win 6).blk t).view.emb j)
  refine congrArg (encOf V c) (funext fun a => Fin.ext ?_)
  match a with
  | ⟨0, _⟩ => show t.val * 1000 + (j 0).val = win0_6.index t (0 : Fin 2) * 1000 + 1 * (j 0).val; rw [e0]; omega
  | ⟨1, _⟩ => show (j 1).val = win0_6.index t (1 : Fin 2) * 256 + 1 * (j 1).val; rw [e1]; omega

/-- An index of the result array is in point t's block iff each coordinate is in the block's range on its axis. -/
theorem mem_blk (t : Fin cfg0.N) (i : S10000x256.Idx) :
    i ∈ ((cfg0.win 6).blk t).view.set ↔ ∀ a : Fin 2, win0_6.index t a * S1000x256.size a ≤ (i a).val ∧ (i a).val < win0_6.index t a * S1000x256.size a + S1000x256.size a := by
  show i ∈ ((View.whole main_v17).slice (win0_6.rect t)).set ↔ _
  rw [View.set_slice_whole, Rect.mem_set_unit]
  exact Iff.rfl

/-- THE REGION'S RESULT: the ten row blocks cover the array (row r lies in the block of point r / 1000), so it ends holding the
    encode stage of the arrays the region found. -/
theorem enc_final (c : Dev nD) : (dat0 V c).arrAt 6 cfg0.N = encOf V c :=
  (dat0 V c).arrAt_eq_of_cover 6 (encOf V c) (fun t _ => flushed_enc V c t) fun i => by
    have hi0 : (i 0).val < 10000 := (i 0).isLt
    have hi1 : (i 1).val < 256 := (i 1).isLt
    have hN : (i 0).val / 1000 < cfg0.N := lt_of_lt_of_eq (by omega : (i 0).val / 1000 < 10) N_0.symm
    refine ⟨⟨(i 0).val / 1000, hN⟩, flush0_6 _, ?_⟩
    obtain ⟨-, -, -, -, -, -, -, -, -, -, -, -, e0, e1⟩ := idx_facts ⟨(i 0).val / 1000, hN⟩
    rw [mem_blk]
    intro a
    match a with
    | ⟨0, _⟩ =>
      show win0_6.index ⟨(i 0).val / 1000, hN⟩ (0 : Fin 2) * 1000 ≤ (i 0).val ∧ (i 0).val < win0_6.index ⟨(i 0).val / 1000, hN⟩ (0 : Fin 2) * 1000 + 1000
      rw [e0]; show (i 0).val / 1000 * 1000 ≤ (i 0).val ∧ (i 0).val < (i 0).val / 1000 * 1000 + 1000; omega
    | ⟨1, _⟩ =>
      show win0_6.index ⟨(i 0).val / 1000, hN⟩ (1 : Fin 2) * 256 ≤ (i 1).val ∧ (i 1).val < win0_6.index ⟨(i 0).val / 1000, hN⟩ (1 : Fin 2) * 256 + 256
      rw [e1]; omega

end Cert.KernelIdeal.EncV

end
-- ==== Proof.DecRegion.lean ====
/-
  The second dense region of the kernel's program, read as a value: whatever the region finds in its six input arrays, its
  result array ends holding the decode stage (Layers.lean) of them.

  The grid has ten points; point t works on rows 1000·t … 1000·t + 999 of the aggregated activations, with the bias rows and the
  two weight arrays whole at every point, and writes rows 1000·t … 1000·t + 999 of the result. On one block the body's
  arithmetic is the decode stage of the block (changes of float format are the identity over the extended reals, a matrix
  product accumulated into zeros is the plain product, and the larger of a number and the splat of the zero word is its
  positive part); the decode stage acts row by row, so the block written is that block of rows of the decode stage of the
  whole arrays; and the ten blocks cover the result array.
-/
import proofs.«123440_j62758062129644_1_alg».proof.Proof.Gen.KernelIdeal.Frame
import proofs.«123440_j62758062129644_1_alg».proof.Proof.Layers
import Idealize.ShloMosaic.Lib.Pipeline.Value
import Idealize.ShloMosaic.Lib.Tactic

set_option maxRecDepth 16384

noncomputable section

namespace Cert.KernelIdeal.DecV

open Cert.KernelIdeal Cert.KernelIdeal.Gen Idealize.ShloMosaic Idealize.ShloMosaic.TcCoe Idealize.SL.Sem Idealize.ShloMosaic.ValueIdx
open Idealize.ShloMosaic.Pipeline (Dat)
open Cert.Dense Cert.Gin

theorem hz : (![0, 0] : Fin 2 → Nat) = fun _ => 0 := funext fun a => by fin_cases a <;> rfl

/-- A matrix plus a one-row matrix laid along its rows is the matrix with that row's entries added column by column. -/
theorem addf_oneRow {m k : Nat} (A : Mat m k) (v : FVec Ideal ⟨2, ![1, k]⟩ .f32)
    (hb : (⟨2, ![1, k]⟩ : Shape).Broadcasts ⟨2, ![m, k]⟩) :
    addf (F := Ideal) A (broadcastTo ⟨2, ![m, k]⟩ v hb) = addRow A (fun c => v (ix2 (0 : Fin 1) c)) := by
  funext j
  show A j + broadcastTo ⟨2, ![m, k]⟩ v hb j = A j + v (ix2 (0 : Fin 1) (j 1 : Fin k))
  rw [broadcastTo_oneRow_apply]

/-- On whole blocks the body computes the decode stage: max ((raw + gb)·d1W + d1b, 0)·d2W + d2b, each bias the one row of its block. -/
theorem pay_dec (x0 : FVec Ideal S1000x256 .f32) (x1 : FVec Ideal S1x256 .f32) (x2 : FVec Ideal S256x128 .f32)
    (x3 : FVec Ideal S1x128 .f32) (x4 : FVec Ideal S128x2 .f32) (x5 : FVec Ideal S1x2 .f32) :
    k1_pay1 (F := Ideal) x0 x1 x2 x3 x4 x5
      = dec (M := 1000) x0 (fun c => x1 (ix2 (0 : Fin 1) c)) x2 (fun c => x3 (ix2 (0 : Fin 1) c)) x4 (fun c => x5 (ix2 (0 : Fin 1) c)) := by
  have d1 : dot_S1000x256_S256x128_S1000x128_1_0_0_1_n_n = DotDims.plain 1000 256 128 := rfl
  have d2 : dot_S1000x128_S128x2_S1000x2_1_0_0_1_n_n = DotDims.plain 1000 128 2 := rfl
  unfold k1_pay1
  dsimp only
  rw [d1, d2]
  simp only [shapeCast_self]
  show addf (F := Ideal) (matmul (F := Ideal) (DotDims.plain 1000 128 2) none
        (maximumf (F := Ideal)
          (addf (F := Ideal) (matmul (F := Ideal) (DotDims.plain 1000 256 128) none
              (addf (F := Ideal) x0 (broadcastTo S1000x256 x1 broadcasts_S1x256_S1000x256)) x2
              (constant ⟨2, ![1000, 128]⟩ .f32 0x00000000#32))
            (broadcastTo S1000x128 x3 broadcasts_S1x128_S1000x128))
          (broadcast S1000x128 (Scalar.ofBits (F := Ideal) .f32 0x00000000#32))) x4
        (constant ⟨2, ![1000, 2]⟩ .f32 0x00000000#32))
      (broadcastTo S1000x2 x5 broadcasts_S1x2_S1000x2) = _
  rw [addf_oneRow x0 x1, matmul_plain_zero_eq_mm, biasRelu_of_broadcast, matmul_plain_zero_eq_mm, addf_oneRow, Ideal.ofBits_zero_f32]
  rfl

variable (V : (c : Dev nD) → (b : Ref sig .tc) → Buf (Elt Ideal) ((c : Thread nD τ).loc b))

/-- The decode stage of the six arrays as the region finds them (each bias is the one row of its array). -/
abbrev decOf (c : Dev nD) : Mat 10000 2 :=
  dec (M := 10000) (V c main_v58) (fun k => V c main_v59 (ix2 (0 : Fin 1) k)) (V c main_arg6)
    (fun k => V c main_v60 (ix2 (0 : Fin 1) k)) (V c main_arg8) (fun k => V c main_v61 (ix2 (0 : Fin 1) k))

/-- The block indices over the grid: the row-blocked input and the output move with the point along the rows, the five
    other windows stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem rows_le (t : Fin cfg1.N) : t.val * 1000 + 1000 ≤ 10000 := by
  have h : t.val < 10 := lt_of_lt_of_eq t.isLt N_1
  omega

/-- Point t's block of the aggregated activations is rows 1000·t … 1000·t + 999 of the array. -/
theorem iblk_0 (c : Dev nD) (t : Fin cfg1.N) :
    (iblk1 V c 0 t : Mat 1000 256) = rowBlock 1000 t.val (rows_le t) (V c main_v58) := by
  obtain ⟨e0, e1, -⟩ := idx_facts t
  funext y
  show V c main_v58 (((cfg1.win 0).blk t).view.emb y) = V c main_v58 _
  refine congrArg (V c main_v58) (funext fun a => Fin.ext ?_)
  match a with
  | ⟨0, _⟩ => show win1_0.index t (0 : Fin 2) * 1000 + 1 * (y 0).val = t.val * 1000 + (y 0).val; rw [e0]; omega
  | ⟨1, _⟩ => show win1_0.index t (1 : Fin 2) * 256 + 1 * (y 1).val = (y 1).val; rw [e1]; omega

/-! Every point's block of a bias row or of a weight is the whole array. -/

theorem iblk_1 (c : Dev nD) (t : Fin cfg1.N) : (iblk1 V c 1 t : Mat 1 256) = V c main_v59 := by
  obtain ⟨-, -, e0, e1, -⟩ := idx_facts t
  funext y
  show V c main_v59 (((cfg1.win 1).blk t).view.emb y) = V c main_v59 y
  refine congrArg (V c main_v59) (funext fun a => Fin.ext ?_)
  match a with
  | ⟨0, _⟩ => show win1_1.index t (0 : Fin 2) * 1 + 1 * (y 0).val = (y 0).val; rw [e0]; omega
  | ⟨1, _⟩ => show win1_1.index t (1 : Fin 2) * 256 + 1 * (y 1).val = (y 1).val; rw [e1]; omega

theorem iblk_2 (c : Dev nD) (t : Fin cfg1.N) : (iblk1 V c 2 t : Mat 256 128) = V c main_arg6 := by
  obtain ⟨-, -, -, -, e0, e1, -⟩ := idx_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 256 + 1 * (y 0).val = (y 0).val; rw [e0]; omega
  | ⟨1, _⟩ => show win1_2.index t (1 : Fin 2) * 128 + 1 * (y 1).val = (y 1).val; rw [e1]; omega

theorem iblk_3 (c : Dev nD) (t : Fin cfg1.N) : (iblk1 V c 3 t : Mat 1 128) = V c main_v60 := by
  obtain ⟨-, -, -, -, -, -, e0, e1, -⟩ := idx_facts t
  funext y
  show V c main_v60 (((cfg1.win 3).blk t).view.emb y) = V c main_v60 y
  refine congrArg (V c main_v60) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem iblk_4 (c : Dev nD) (t : Fin cfg1.N) : (iblk1 V c 4 t : Mat 128 2) = V c main_arg8 := by
  obtain ⟨-, -, -, -, -, -, -, -, e0, e1, -⟩ := idx_facts t
  funext y
  show V c main_arg8 (((cfg1.win 4).blk t).view.emb y) = V c main_arg8 y
  refine congrArg (V c main_arg8) (funext fun a => Fin.ext ?_)
  match a with
  | ⟨0, _⟩ => show win1_4.index t (0 : Fin 2) * 128 + 1 * (y 0).val = (y 0).val; rw [e0]; omega
  | ⟨1, _⟩ => show win1_4.index t (1 : Fin 2) * 2 + 1 * (y 1).val = (y 1).val; rw [e1]; omega

theorem iblk_5 (c : Dev nD) (t : Fin cfg1.N) : (iblk1 V c 5 t : Mat 1 2) = V c main_v61 := by
  obtain ⟨-, -, -, -, -, -, -, -, -, -, e0, e1, -⟩ := idx_facts t
  funext y
  show V c main_v61 (((cfg1.win 5).blk t).view.emb y) = V c main_v61 y
  refine congrArg (V c main_v61) (funext fun a => Fin.ext ?_)
  match a with
  | ⟨0, _⟩ => show win1_5.index t (0 : Fin 2) * 1 + 1 * (y 0).val = (y 0).val; rw [e0]; omega
  | ⟨1, _⟩ => show win1_5.index t (1 : Fin 2) * 2 + 1 * (y 1).val = (y 1).val; rw [e1]; omega

/-- What point t writes back is rows 1000·t … 1000·t + 999 of the decode stage of the whole arrays. -/
theorem flushed_dec (c : Dev nD) (t : Fin cfg1.N) :
    (dat1 V c).flushed 6 t = ((cfg1.win 6).blk t).view.read (Elt Ideal) (decOf V c) := by
  show (cfg1.win 6).cut (grid1.coords t) ((dat1 V c).after 6 t) = _
  rw [after1_6]
  unfold out1_6
  rw [View.canon_unit_zero hz]
  simp only [View.ld_unit_zero (S := S1000x256) hz, View.ld_unit_zero (S := S1x256) hz, View.ld_unit_zero (S := S256x128) hz,
    View.ld_unit_zero (S := S1x128) hz, View.ld_unit_zero (S := S128x2) hz, View.ld_unit_zero (S := S1x2) hz]
  rw [pay_dec, iblk_0, iblk_1, iblk_2, iblk_3, iblk_4, iblk_5, dec_rowBlock]
  obtain ⟨-, -, -, -, -, -, -, -, -, -, -, -, e0, e1⟩ := idx_facts t
  funext j
  show decOf V c _ = decOf V c (((cfg1.win 6).blk t).view.emb j)
  refine congrArg (decOf V c) (funext fun a => Fin.ext ?_)
  match a with
  | ⟨0, _⟩ => show t.val * 1000 + (j 0).val = win1_6.index t (0 : Fin 2) * 1000 + 1 * (j 0).val; rw [e0]; omega
  | ⟨1, _⟩ => show (j 1).val = win1_6.index t (1 : Fin 2) * 2 + 1 * (j 1).val; rw [e1]; omega

/-- An index of the result array is in point t's block iff each coordinate is in the block's range on its axis. -/
theorem mem_blk (t : Fin cfg1.N) (i : S10000x2.Idx) :
    i ∈ ((cfg1.win 6).blk t).view.set ↔ ∀ a : Fin 2, win1_6.index t a * S1000x2.size a ≤ (i a).val ∧ (i a).val < win1_6.index t a * S1000x2.size a + S1000x2.size a := by
  show i ∈ ((View.whole main_v62).slice (win1_6.rect t)).set ↔ _
  rw [View.set_slice_whole, Rect.mem_set_unit]
  exact Iff.rfl

/-- THE REGION'S RESULT: the ten row blocks cover the array (row r lies in the block of point r / 1000), so it ends holding the
    decode stage of the arrays the region found. -/
theorem dec_final (c : Dev nD) : (dat1 V c).arrAt 6 cfg1.N = decOf V c :=
  (dat1 V c).arrAt_eq_of_cover 6 (decOf V c) (fun t _ => flushed_dec V c t) fun i => by
    have hi0 : (i 0).val < 10000 := (i 0).isLt
    have hi1 : (i 1).val < 2 := (i 1).isLt
    have hN : (i 0).val / 1000 < cfg1.N := lt_of_lt_of_eq (by omega : (i 0).val / 1000 < 10) N_1.symm
    refine ⟨⟨(i 0).val / 1000, hN⟩, flush1_6 _, ?_⟩
    obtain ⟨-, -, -, -, -, -, -, -, -, -, -, -, e0, e1⟩ := idx_facts ⟨(i 0).val / 1000, hN⟩
    rw [mem_blk]
    intro a
    match a with
    | ⟨0, _⟩ =>
      show win1_6.index ⟨(i 0).val / 1000, hN⟩ (0 : Fin 2) * 1000 ≤ (i 0).val ∧ (i 0).val < win1_6.index ⟨(i 0).val / 1000, hN⟩ (0 : Fin 2) * 1000 + 1000
      rw [e0]; show (i 0).val / 1000 * 1000 ≤ (i 0).val ∧ (i 0).val < (i 0).val / 1000 * 1000 + 1000; omega
    | ⟨1, _⟩ =>
      show win1_6.index ⟨(i 0).val / 1000, hN⟩ (1 : Fin 2) * 2 ≤ (i 1).val ∧ (i 1).val < win1_6.index ⟨(i 0).val / 1000, hN⟩ (1 : Fin 2) * 2 + 2
      rw [e1]; omega

end Cert.KernelIdeal.DecV

end
-- ==== Proof.RefLayers.lean ====
/-
  The reference's dense stretches are the two dense stages (Layers.lean), and its aggregation stretch between them is one
  function of the first stage's result.
-/
import proofs.«123440_j62758062129644_1_alg».proof.Proof.RefRead
import proofs.«123440_j62758062129644_1_alg».proof.Proof.Layers

noncomputable section

namespace Cert.ReferenceIdeal.Layers

open Cert.ReferenceIdeal Cert.ReferenceIdeal.ReadP Idealize.ShloMosaic Idealize.ShloMosaic.ValueIdx Cert.Dense Cert.Gin

variable {F : FTy → Type} [FloatOps F]

/-- The aggregation between the two dense stages as a function of the first stage's result H and of the edge list x1:
    rows of H gathered along the extended source list, scaled by the edge weights, and summed into their destination rows. -/
def mid (H : (⟨S10000x256, .f32⟩ : BufTy).Contents (Elt F)) (x1 : (⟨S2x160000, .i32⟩ : BufTy).Contents (Elt F)) :
    (⟨S10000x256, .f32⟩ : BufTy).Contents (Elt F) :=
  Host.scatterAdd scatter_S10000x256_S170000x1_S170000x256_1_0_0_1 (val_main_v58 (F := F)) (val_main_v59 (F := F) x1)
    (mulf (Host.gather gather_S10000x256_S170000x1_S170000x256_1_0_n_n_0_1_1256 H (val_main_v53 (F := F) x1)) (val_main_v56 (F := F) x1))

/-- The reference's aggregated activations are `mid` of its encode-stage result. -/
theorem val_main_v60_eq_mid (x0 : (⟨S10000x512, .f32⟩ : BufTy).Contents (Elt F)) (x1 : (⟨S2x160000, .i32⟩ : BufTy).Contents (Elt F))
    (x2 : (⟨S512x512, .f32⟩ : BufTy).Contents (Elt F)) (x3 : (⟨S512, .f32⟩ : BufTy).Contents (Elt F))
    (x4 : (⟨S1024x256, .f32⟩ : BufTy).Contents (Elt F)) :
    val_main_v60 (F := F) x0 x1 x2 x3 x4 = mid (val_main_v19 (F := F) x0 x1 x2 x3 x4) x1 := rfl

/-! ## The encode stretch -/

/-- A sum over 1024 consecutive indices is the sum over the first 512 of them plus the sum over the last 512. -/
theorem sum_halves {M : Type*} [AddCommMonoid M] (f : Fin 1024 → M) :
    ∑ k : Fin 1024, f k
      = ∑ k : Fin 512, f ⟨k.val, by have := k.isLt; omega⟩ + ∑ k : Fin 512, f ⟨512 + k.val, by have := k.isLt; omega⟩ :=
  Fin.sum_univ_add (a := 512) (b := 512) f

/-- The row-wise concatenation [x0 | inner layer] read in its left half, column c < 512, is x0 at column c. -/
theorem val_main_v18_left (x0 : (⟨S10000x512, .f32⟩ : BufTy).Contents (Elt Ideal)) (x1 : (⟨S2x160000, .i32⟩ : BufTy).Contents (Elt Ideal))
    (x2 : (⟨S512x512, .f32⟩ : BufTy).Contents (Elt Ideal)) (x3 : (⟨S512, .f32⟩ : BufTy).Contents (Elt Ideal))
    (a : Fin 10000) (c : Fin 512) :
    val_main_v18 (F := Ideal) x0 x1 x2 x3 (ix2 a (⟨c.val, by have := c.isLt; omega⟩ : Fin 1024)) = x0 (ix2 a c) := by
  unfold val_main_v18
  generalize val_main_v17 (F := Ideal) x0 x1 x2 x3 = y
  exact concatenate_pair_apply_left (1 : Fin S10000x1024.rank) x0 y _ _ rfl (ix2 a c)
    (fun d => match d with
      | ⟨0, _⟩ => rfl
      | ⟨1, _⟩ => rfl)

/-- The same concatenation read in its right half, column 512 + c, is the inner layer at column c. -/
theorem val_main_v18_right (x0 : (⟨S10000x512, .f32⟩ : BufTy).Contents (Elt Ideal)) (x1 : (⟨S2x160000, .i32⟩ : BufTy).Contents (Elt Ideal))
    (x2 : (⟨S512x512, .f32⟩ : BufTy).Contents (Elt Ideal)) (x3 : (⟨S512, .f32⟩ : BufTy).Contents (Elt Ideal))
    (a : Fin 10000) (c : Fin 512) :
    val_main_v18 (F := Ideal) x0 x1 x2 x3 (ix2 a (⟨512 + c.val, by have := c.isLt; omega⟩ : Fin 1024))
      = val_main_v17 (F := Ideal) x0 x1 x2 x3 (ix2 a c) := by
  unfold val_main_v18
  generalize val_main_v17 (F := Ideal) x0 x1 x2 x3 = y
  exact concatenate_pair_apply_right (1 : Fin S10000x1024.rank) x0 y _ _ rfl rfl (ix2 a c)
    (fun d => match d with
      | ⟨0, _⟩ => fun _ => rfl
      | ⟨1, _⟩ => fun h => absurd rfl h)
    (by show c.val + 512 = 512 + c.val; omega)

/-- The inner product of the reference is the textbook product of the neighbour sums with the inner weight. -/
theorem val_main_v14_eq_mm (x0 : (⟨S10000x512, .f32⟩ : BufTy).Contents (Elt Ideal)) (x1 : (⟨S2x160000, .i32⟩ : BufTy).Contents (Elt Ideal))
    (x2 : (⟨S512x512, .f32⟩ : BufTy).Contents (Elt Ideal)) :
    val_main_v14 (F := Ideal) x0 x1 x2 = mm (val_main_v13 (F := Ideal) x0 x1) x2 := by
  unfold val_main_v14
  generalize val_main_v13 (F := Ideal) x0 x1 = agg
  exact dotGeneral_plain_eq_mm (m := 10000) (k := 512) (n := 512) none agg x2

/-- The inner bias, broadcast to one row and then to every row, read at an entry: the bias of that column. -/
theorem val_main_v16_entry (x3 : (⟨S512, .f32⟩ : BufTy).Contents (Elt Ideal)) (a : Fin 10000) (c : Fin 512) :
    val_main_v16 (F := Ideal) x3 (ix2 a c) = x3 (ix1 c) := by
  rw [val_main_v16_apply, val_main_v15_apply]
  exact congrArg x3 (funext fun d => match d with
    | ⟨0, _⟩ => rfl)

/-- The inner layer of the reference, entry by entry: the product plus the column's bias. -/
theorem val_main_v17_entry (x0 : (⟨S10000x512, .f32⟩ : BufTy).Contents (Elt Ideal)) (x1 : (⟨S2x160000, .i32⟩ : BufTy).Contents (Elt Ideal))
    (x2 : (⟨S512x512, .f32⟩ : BufTy).Contents (Elt Ideal)) (x3 : (⟨S512, .f32⟩ : BufTy).Contents (Elt Ideal))
    (a : Fin 10000) (c : Fin 512) :
    val_main_v17 (F := Ideal) x0 x1 x2 x3 (ix2 a c)
      = addRow (mm (val_main_v13 (F := Ideal) x0 x1) x2) (fun k => x3 (ix1 k)) (ix2 a c) := by
  rw [val_main_v17_apply, val_main_v14_eq_mm, val_main_v16_entry]
  rfl

/-- The outer product of the reference is the textbook product of the concatenation with the whole outer weight. -/
theorem val_main_v19_eq_mm (x0 : (⟨S10000x512, .f32⟩ : BufTy).Contents (Elt Ideal)) (x1 : (⟨S2x160000, .i32⟩ : BufTy).Contents (Elt Ideal))
    (x2 : (⟨S512x512, .f32⟩ : BufTy).Contents (Elt Ideal)) (x3 : (⟨S512, .f32⟩ : BufTy).Contents (Elt Ideal))
    (x4 : (⟨S1024x256, .f32⟩ : BufTy).Contents (Elt Ideal)) :
    val_main_v19 (F := Ideal) x0 x1 x2 x3 x4 = mm (val_main_v18 (F := Ideal) x0 x1 x2 x3) x4 := by
  unfold val_main_v19
  generalize val_main_v18 (F := Ideal) x0 x1 x2 x3 = cat
  exact dotGeneral_plain_eq_mm (m := 10000) (k := 1024) (n := 256) none cat x4

/-- The reference's product of [x | agg · fW + fb] with the whole outer weight is the encode stage over the weight's two halves. -/
theorem ref_enc (x0 : (⟨S10000x512, .f32⟩ : BufTy).Contents (Elt Ideal)) (x1 : (⟨S2x160000, .i32⟩ : BufTy).Contents (Elt Ideal))
    (x2 : (⟨S512x512, .f32⟩ : BufTy).Contents (Elt Ideal)) (x3 : (⟨S512, .f32⟩ : BufTy).Contents (Elt Ideal))
    (x4 : (⟨S1024x256, .f32⟩ : BufTy).Contents (Elt Ideal))
    (h0 : S1024x256.Slices ![0, 0] ⟨2, ![512, 256]⟩) (h1 : S1024x256.Slices ![512, 0] ⟨2, ![512, 256]⟩) :
    val_main_v19 (F := Ideal) x0 x1 x2 x3 x4
      = enc (M := 10000) x0 (val_main_v13 (F := Ideal) x0 x1) x2 (fun k => x3 (ix1 k))
          (extractStridedSlice ⟨2, ![512, 256]⟩ ![0, 0] x4 h0) (extractStridedSlice ⟨2, ![512, 256]⟩ ![512, 0] x4 h1) := by
  funext i
  obtain ⟨a, b, rfl⟩ : ∃ (a : Fin 10000) (b : Fin 256), i = ix2 a b := ⟨i 0, i 1, eq_ix2 i⟩
  rw [val_main_v19_eq_mm]
  -- both sides entry by entry: one sum over 1024 columns against two sums over 512
  show mm (val_main_v18 (F := Ideal) x0 x1 x2 x3) x4 (ix2 a b)
    = mm x0 (extractStridedSlice ⟨2, ![512, 256]⟩ ![0, 0] x4 h0) (ix2 a b)
      + mm (addRow (mm (val_main_v13 (F := Ideal) x0 x1) x2) (fun k => x3 (ix1 k)))
          (extractStridedSlice ⟨2, ![512, 256]⟩ ![512, 0] x4 h1) (ix2 a b)
  rw [mm_apply, mm_apply, mm_apply, sum_halves]
  refine congrArg₂ (· + ·) ?_ ?_
  · -- the first 512 columns meet x0 and the top half of the weight
    refine Finset.sum_congr rfl fun c _ => ?_
    rw [val_main_v18_left]
    refine congrArg₂ (· * ·) rfl (extractStridedSlice_apply ![0, 0] x4 h0 (ix2 c b) _ (fun d => match d with
      | ⟨0, _⟩ => by show c.val = 0 + c.val; omega
      | ⟨1, _⟩ => by show b.val = 0 + b.val; omega)).symm
  · -- the last 512 columns meet the inner layer and the bottom half of the weight
    refine Finset.sum_congr rfl fun c _ => ?_
    rw [val_main_v18_right, val_main_v17_entry]
    refine congrArg₂ (· * ·) rfl (extractStridedSlice_apply ![512, 0] x4 h1 (ix2 c b) _ (fun d => match d with
      | ⟨0, _⟩ => by show 512 + c.val = 512 + c.val; rfl
      | ⟨1, _⟩ => by show b.val = 0 + b.val; omega)).symm

/-! ## The decode stretch -/

/-- The first decode bias, broadcast to one row and then to every row, read at an entry: the bias of that column. -/
theorem val_main_v62_entry (x5 : (⟨S256, .f32⟩ : BufTy).Contents (Elt Ideal)) (j : S10000x256.Idx) :
    val_main_v62 (F := Ideal) x5 j = x5 (ix1 (j 1 : Fin 256)) := by
  rw [val_main_v62_apply, val_main_v61_apply]
  exact congrArg x5 (funext fun d => match d with
    | ⟨0, _⟩ => rfl)

/-- The second decode bias read at an entry: the bias of that column. -/
theorem val_main_v66_entry (x7 : (⟨S128, .f32⟩ : BufTy).Contents (Elt Ideal)) (j : S10000x128.Idx) :
    val_main_v66 (F := Ideal) x7 j = x7 (ix1 (j 1 : Fin 128)) := by
  rw [val_main_v66_apply, val_main_v65_apply]
  exact congrArg x7 (funext fun d => match d with
    | ⟨0, _⟩ => rfl)

/-- The last bias read at an entry: the bias of that column. -/
theorem val_main_v71_entry (x9 : (⟨S2, .f32⟩ : BufTy).Contents (Elt Ideal)) (j : S10000x2.Idx) :
    val_main_v71 (F := Ideal) x9 j = x9 (ix1 (j 1 : Fin 2)) := by
  rw [val_main_v71_apply, val_main_v70_apply]
  exact congrArg x9 (funext fun d => match d with
    | ⟨0, _⟩ => rfl)

/-- The rectifier's lower bound, the broadcast of the word of zero, is the number zero at every entry. -/
theorem val_main_call1_v0_entry (j : S10000x128.Idx) : val_main_call1_v0 (F := Ideal) j = 0 := by
  rw [val_main_call1_v0_apply, val_main_call1_cst_apply]
  exact Ideal.ofBits_zero_f32

/-- The first decode product is the textbook product. -/
theorem dot64_eq_mm (A : Mat 10000 256) (B : Mat 256 128) :
    Host.dotGeneral dot_S10000x256_S256x128_S10000x128_1_0_0_1_n_n none A B = mm A B :=
  dotGeneral_plain_eq_mm (m := 10000) (k := 256) (n := 128) none A B

/-- The second decode product is the textbook product. -/
theorem dot69_eq_mm (A : Mat 10000 128) (B : Mat 128 2) :
    Host.dotGeneral dot_S10000x128_S128x2_S10000x2_1_0_0_1_n_n none A B = mm A B :=
  dotGeneral_plain_eq_mm (m := 10000) (k := 128) (n := 2) none A B

/-- The reference's last stretch is the decode stage of its aggregated activations. -/
theorem ref_dec (x0 : (⟨S10000x512, .f32⟩ : BufTy).Contents (Elt Ideal)) (x1 : (⟨S2x160000, .i32⟩ : BufTy).Contents (Elt Ideal))
    (x2 : (⟨S512x512, .f32⟩ : BufTy).Contents (Elt Ideal)) (x3 : (⟨S512, .f32⟩ : BufTy).Contents (Elt Ideal))
    (x4 : (⟨S1024x256, .f32⟩ : BufTy).Contents (Elt Ideal)) (x5 : (⟨S256, .f32⟩ : BufTy).Contents (Elt Ideal))
    (x6 : (⟨S256x128, .f32⟩ : BufTy).Contents (Elt Ideal)) (x7 : (⟨S128, .f32⟩ : BufTy).Contents (Elt Ideal))
    (x8 : (⟨S128x2, .f32⟩ : BufTy).Contents (Elt Ideal)) (x9 : (⟨S2, .f32⟩ : BufTy).Contents (Elt Ideal)) :
    val_main_v72 (F := Ideal) x0 x1 x2 x3 x4 x5 x6 x7 x8 x9
      = dec (M := 10000) (val_main_v60 (F := Ideal) x0 x1 x2 x3 x4) (fun k => x5 (ix1 k)) x6 (fun k => x7 (ix1 k)) x8 (fun k => x9 (ix1 k)) := by
  unfold val_main_v72 val_main_v69 val_main_v68 val_main_v67 val_main_v64 val_main_v63
  generalize val_main_v60 (F := Ideal) x0 x1 x2 x3 x4 = raw
  unfold dec
  -- the aggregated activations plus the first bias
  have e63 : addf raw (val_main_v62 (F := Ideal) x5) = addRow raw (fun k => x5 (ix1 k)) := by
    funext j
    show raw j + val_main_v62 (F := Ideal) x5 j = raw j + x5 (ix1 (j 1 : Fin 256))
    rw [val_main_v62_entry]
  rw [e63, dot64_eq_mm]
  generalize mm (addRow raw (fun k => x5 (ix1 k))) x6 = P
  -- the second bias and the rectifier
  have e68 : maximumf (addf P (val_main_v66 (F := Ideal) x7)) (val_main_call1_v0 (F := Ideal))
      = biasRelu 0 P (fun k => x7 (ix1 k)) := by
    funext j
    show max (P j + val_main_v66 (F := Ideal) x7 j) (val_main_call1_v0 (F := Ideal) j) = max (P j + x7 (ix1 (j 1 : Fin 128))) 0
    rw [val_main_v66_entry, val_main_call1_v0_entry]
  rw [e68, dot69_eq_mm]
  generalize mm (biasRelu 0 P (fun k => x7 (ix1 k))) x8 = Q
  -- the last bias
  funext j
  show Q j + val_main_v71 (F := Ideal) x9 j = Q j + x9 (ix1 (j 1 : Fin 2))
  rw [val_main_v71_entry]

end Cert.ReferenceIdeal.Layers

end
-- ==== Proof.HostReads.lean ====
/-
  What the host stretches of the kernel's program leave in the buffers the two dense regions read, as functions of the
  argument arrays: the neighbour sums, the two halves of the outer weight and the bias rows before the first region; the
  aggregated activations (the same aggregation the reference applies, `mid`, of the first region's result) and the bias rows
  before the second; and the two regions' result arrays as the write-backs leave them.
-/
import proofs.«123440_j62758062129644_1_alg».proof.Proof.Gen.KernelIdeal.Frame
import proofs.«123440_j62758062129644_1_alg».proof.Proof.RefLayers
import Idealize.ShloMosaic.Lib.StableHlo.Run

set_option maxRecDepth 16384

noncomputable section

namespace Cert.KernelIdeal.HostV

open Cert.KernelIdeal Cert.KernelIdeal.Gen Idealize.ShloMosaic Idealize.ShloMosaic.TcCoe Idealize.SL.Sem Idealize.ShloMosaic.StableHlo
open Cert.ReferenceIdeal.ReadP (val_main_v13)
open Cert.ReferenceIdeal.Layers (mid)

variable {F : FTy → Type} [FloatOps F]
variable (m : (ℓ : Loc nD τ sig) → Buf (Elt F) ℓ) (ρ : Dev nD → PrngReg)

/-- A stretch of host operations none of which writes a buffer leaves that buffer as it was: each operation's written set is a
    singleton, and the buffer is another reference. -/
local macro "stretch_skips" l:ident : tactic =>
  `(tactic| (refine StableHlo.after_of_forall_not_mem _ _ (List.forall_iff_forall_mem.mp ?_)
             simp only [$l:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## Before the first region -/

theorem V1_arg0 (c : Dev nD) : V1 m ρ c main_arg0 = m ((c : Thread nD τ).loc main_arg0) := by
  refine Eq.trans (b := W0 m ρ c (Proc.devRef .tc main_arg0)) ?_ rfl
  stretch_skips hostOps0

theorem V1_arg2 (c : Dev nD) : V1 m ρ c main_arg2 = m ((c : Thread nD τ).loc main_arg2) := by
  refine Eq.trans (b := W0 m ρ c (Proc.devRef .tc main_arg2)) ?_ rfl
  stretch_skips hostOps0

/-- The neighbour sums: the reference's own gather-and-scatter of the features along the edge list. -/
theorem V1_v13 (c : Dev nD) :
    V1 m ρ c main_v13 = val_main_v13 (F := F) (m ((c : Thread nD τ).loc main_arg0)) (m ((c : Thread nD τ).loc main_arg1)) := by
  show StableHlo.after hostOps0 (W0 m ρ c) (Proc.devRef .tc main_v13) = _
  after_results
  rfl

theorem V1_v14 (c : Dev nD) :
    V1 m ρ c main_v14 = extractStridedSlice S512x256 ![0, 0] (m ((c : Thread nD τ).loc main_arg4)) slices_S1024x256_S512x256_0_0 := by
  show StableHlo.after hostOps0 (W0 m ρ c) (Proc.devRef .tc main_v14) = _
  after_results

theorem V1_v15 (c : Dev nD) :
    V1 m ρ c main_v15 = extractStridedSlice S512x256 ![512, 0] (m ((c : Thread nD τ).loc main_arg4)) slices_S1024x256_S512x256_512_0 := by
  show StableHlo.after hostOps0 (W0 m ρ c) (Proc.devRef .tc main_v15) = _
  after_results

theorem V1_v16 (c : Dev nD) :
    V1 m ρ c main_v16 = shapeCast S1x512 (m ((c : Thread nD τ).loc main_arg3)) shapeCasts_S512_S1x512 := by
  show StableHlo.after hostOps0 (W0 m ρ c) (Proc.devRef .tc main_v16) = _
  after_results
  rfl

/-! ## Between the regions -/

/-- The first region's result array is what its write-backs leave. -/
theorem V2_v17 (c : Dev nD) : V2 m ρ c main_v17 = (dat0 (V1 m ρ) c).arrAt 6 cfg0.N := by
  exact W2_arr m ρ c 6

/-! ### The edge list's two rows, as the first host stretch leaves them and as the first region passes them on -/

section Stages

open Cert.ReferenceIdeal.ReadP (val_main_v1 val_main_v3 val_main_v21 val_main_v22 val_main_v28 val_main_v31 val_main_cst_5
  val_main_v32)

/-- The source row of the edge list. -/
private theorem W1_v1 (c : Dev nD) :
    W1 m ρ c (Proc.devRef .tc main_v1) = val_main_v1 (F := F) (m ((c : Thread nD τ).loc main_arg1)) := by
  show StableHlo.after hostOps0 (W0 m ρ c) (Proc.devRef .tc main_v1) = _
  after_results
  rfl

/-- The destination row of the edge list. -/
private theorem W1_v3 (c : Dev nD) :
    W1 m ρ c (Proc.devRef .tc main_v3) = val_main_v3 (F := F) (m ((c : Thread nD τ).loc main_arg1)) := by
  show StableHlo.after hostOps0 (W0 m ρ c) (Proc.devRef .tc main_v3) = _
  after_results
  rfl

/-- Neither row is one of the first region's arrays. -/
private theorem W2_v1 (c : Dev nD) :
    W2 m ρ c (Proc.devRef .tc main_v1) = val_main_v1 (F := F) (m ((c : Thread nD τ).loc main_arg1)) :=
  (W2_of_ne m ρ c main_v1 (by decide)).trans (W1_v1 m ρ c)

private theorem W2_v3 (c : Dev nD) :
    W2 m ρ c (Proc.devRef .tc main_v3) = val_main_v3 (F := F) (m ((c : Thread nD τ).loc main_arg1)) :=
  (W2_of_ne m ρ c main_v3 (by decide)).trans (W1_v3 m ρ c)

/-! ### The second host stretch: the edge list extended by the self loops, and the degree test and scale -/

/-- The extended source list. -/
private theorem W3_v19 (c : Dev nD) :
    W3 m ρ c (Proc.devRef .tc main_v19) = val_main_v21 (F := F) (m ((c : Thread nD τ).loc main_arg1)) := by
  show StableHlo.after hostOps1 (W2 m ρ c) (Proc.devRef .tc main_v19) = _
  after_results
  rw [W2_v1]
  rfl

/-- The extended destination list. -/
private theorem W3_v20 (c : Dev nD) :
    W3 m ρ c (Proc.devRef .tc main_v20) = val_main_v22 (F := F) (m ((c : Thread nD τ).loc main_arg1)) := by
  show StableHlo.after hostOps1 (W2 m ρ c) (Proc.devRef .tc main_v20) = _
  after_results
  rw [W2_v3]
  rfl

/-- Which rows have a positive degree. -/
private theorem W3_v26 (c : Dev nD) :
    W3 m ρ c (Proc.devRef .tc main_v26) = val_main_v28 (F := F) (m ((c : Thread nD τ).loc main_arg1)) := by
  show StableHlo.after hostOps1 (W2 m ρ c) (Proc.devRef .tc main_v26) = _
  after_results
  rw [W2_v3]
  rfl

/-- The inverse square root of the degree (bounded below by one). -/
private theorem W3_v29 (c : Dev nD) :
    W3 m ρ c (Proc.devRef .tc main_v29) = val_main_v31 (F := F) (m ((c : Thread nD τ).loc main_arg1)) := by
  show StableHlo.after hostOps1 (W2 m ρ c) (Proc.devRef .tc main_v29) = _
  after_results
  rw [W2_v3]
  rfl

/-- The zero the scale falls back to. -/
private theorem W3_cst_5 (c : Dev nD) :
    W3 m ρ c (Proc.devRef .tc main_cst_5) = val_main_cst_5 (F := F) := by
  show StableHlo.after hostOps1 (W2 m ρ c) (Proc.devRef .tc main_cst_5) = _
  after_results
  rfl

/-- The second stretch does not write the first region's result. -/
private theorem W3_v17 (c : Dev nD) : W3 m ρ c (Proc.devRef .tc main_v17) = V2 m ρ c main_v17 := by
  refine Eq.trans (b := W2 m ρ c (Proc.devRef .tc main_v17)) ?_ rfl
  stretch_skips hostOps1

/-! ### The third host stretch: the scale where the degree is positive, zero elsewhere -/

private theorem W4_v30 (c : Dev nD) :
    W4 m ρ c (Proc.devRef .tc main_v30) = val_main_v32 (F := F) (m ((c : Thread nD τ).loc main_arg1)) := by
  have h26 := W3_v26 m ρ c
  have h29 := W3_v29 m ρ c
  have h5 := W3_cst_5 m ρ c
  show StableHlo.after hostOps1_1 (W3 m ρ c) (Proc.devRef .tc main_v30) = _
  generalize W3 m ρ c = V at h26 h29 h5 ⊢
  after_results
  rw [h26, h29, h5]
  rfl

private theorem W4_v19 (c : Dev nD) :
    W4 m ρ c (Proc.devRef .tc main_v19) = val_main_v21 (F := F) (m ((c : Thread nD τ).loc main_arg1)) := by
  refine Eq.trans (b := W3 m ρ c (Proc.devRef .tc main_v19)) ?_ (W3_v19 m ρ c)
  stretch_skips hostOps1_1

private theorem W4_v20 (c : Dev nD) :
    W4 m ρ c (Proc.devRef .tc main_v20) = val_main_v22 (F := F) (m ((c : Thread nD τ).loc main_arg1)) := by
  refine Eq.trans (b := W3 m ρ c (Proc.devRef .tc main_v20)) ?_ (W3_v20 m ρ c)
  stretch_skips hostOps1_1

private theorem W4_v17 (c : Dev nD) : W4 m ρ c (Proc.devRef .tc main_v17) = V2 m ρ c main_v17 := by
  refine Eq.trans (b := W3 m ρ c (Proc.devRef .tc main_v17)) ?_ (W3_v17 m ρ c)
  stretch_skips hostOps1_1

end Stages

/-- An argument that no host operation writes and that is not one of the first region's arrays is, after the third host
    stretch, as launched. -/
private theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by stretch_skips hostOps1_1
    _ = W2 m ρ c (Proc.devRef .tc main_arg5) := by stretch_skips hostOps1
    _ = W1 m ρ c (Proc.devRef .tc main_arg5) := W2_of_ne m ρ c main_arg5 (by decide)
    _ = W0 m ρ c (Proc.devRef .tc main_arg5) := by stretch_skips hostOps0
    _ = m ((c : Thread nD τ).loc main_arg5) := rfl

private theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := by stretch_skips hostOps1_1
    _ = W2 m ρ c (Proc.devRef .tc main_arg6) := by stretch_skips hostOps1
    _ = W1 m ρ c (Proc.devRef .tc main_arg6) := W2_of_ne m ρ c main_arg6 (by decide)
    _ = W0 m ρ c (Proc.devRef .tc main_arg6) := by stretch_skips hostOps0
    _ = m ((c : Thread nD τ).loc main_arg6) := rfl

private theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := by stretch_skips hostOps1_1
    _ = W2 m ρ c (Proc.devRef .tc main_arg7) := by stretch_skips hostOps1
    _ = W1 m ρ c (Proc.devRef .tc main_arg7) := W2_of_ne m ρ c main_arg7 (by decide)
    _ = W0 m ρ c (Proc.devRef .tc main_arg7) := by stretch_skips hostOps0
    _ = m ((c : Thread nD τ).loc main_arg7) := rfl

private theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := by stretch_skips hostOps1_1
    _ = W2 m ρ c (Proc.devRef .tc main_arg8) := by stretch_skips hostOps1
    _ = W1 m ρ c (Proc.devRef .tc main_arg8) := W2_of_ne m ρ c main_arg8 (by decide)
    _ = W0 m ρ c (Proc.devRef .tc main_arg8) := by stretch_skips hostOps0
    _ = m ((c : Thread nD τ).loc main_arg8) := rfl

private theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := by stretch_skips hostOps1_1
    _ = W2 m ρ c (Proc.devRef .tc main_arg9) := by stretch_skips hostOps1
    _ = W1 m ρ c (Proc.devRef .tc main_arg9) := W2_of_ne m ρ c main_arg9 (by decide)
    _ = W0 m ρ c (Proc.devRef .tc main_arg9) := by stretch_skips hostOps0
    _ = m ((c : Thread nD τ).loc main_arg9) := rfl

/-- The aggregated activations: the reference's own aggregation of the first region's result along the edge list. -/
theorem V5_v58 (c : Dev nD) :
    V5 m ρ c main_v58 = mid (F := F) (V2 m ρ c main_v17) (m ((c : Thread nD τ).loc main_arg1)) := by
  have h17 := W4_v17 m ρ c
  have h19 := W4_v19 m ρ c
  have h20 := W4_v20 m ρ c
  have h30 := W4_v30 m ρ c
  show StableHlo.after hostOps1_2 (W4 m ρ c) (Proc.devRef .tc main_v58) = _
  generalize W4 m ρ c = V at h17 h19 h20 h30 ⊢
  after_results_simp
  rw [h17, h19, h20, h30]
  rfl

theorem V5_v59 (c : Dev nD) :
    V5 m ρ c main_v59 = shapeCast S1x256 (m ((c : Thread nD τ).loc main_arg5)) shapeCasts_S256_S1x256 := by
  have h := W4_arg5 m ρ c
  show StableHlo.after hostOps1_2 (W4 m ρ c) (Proc.devRef .tc main_v59) = _
  generalize W4 m ρ c = V at h ⊢
  after_results
  rw [h]
  rfl

theorem V5_arg6 (c : Dev nD) : V5 m ρ c main_arg6 = m ((c : Thread nD τ).loc main_arg6) := by
  refine Eq.trans (b := W4 m ρ c (Proc.devRef .tc main_arg6)) ?_ (W4_arg6 m ρ c)
  stretch_skips hostOps1_2

theorem V5_v60 (c : Dev nD) :
    V5 m ρ c main_v60 = shapeCast S1x128 (m ((c : Thread nD τ).loc main_arg7)) shapeCasts_S128_S1x128 := by
  have h := W4_arg7 m ρ c
  show StableHlo.after hostOps1_2 (W4 m ρ c) (Proc.devRef .tc main_v60) = _
  generalize W4 m ρ c = V at h ⊢
  after_results
  rw [h]
  rfl

theorem V5_arg8 (c : Dev nD) : V5 m ρ c main_arg8 = m ((c : Thread nD τ).loc main_arg8) := by
  refine Eq.trans (b := W4 m ρ c (Proc.devRef .tc main_arg8)) ?_ (W4_arg8 m ρ c)
  stretch_skips hostOps1_2

theorem V5_v61 (c : Dev nD) :
    V5 m ρ c main_v61 = shapeCast S1x2 (m ((c : Thread nD τ).loc main_arg9)) shapeCasts_S2_S1x2 := by
  have h := W4_arg9 m ρ c
  show StableHlo.after hostOps1_2 (W4 m ρ c) (Proc.devRef .tc main_v61) = _
  generalize W4 m ρ c = V at h ⊢
  after_results
  rw [h]
  rfl

/-! ## After the second region -/

/-- The program's result array is what the second region's write-backs leave. -/
theorem W6_v62 (c : Dev nD) : W6 m ρ c (Proc.devRef .tc main_v62) = (dat1 (V5 m ρ) c).arrAt 6 cfg1.N := by
  exact W6_arr m ρ c 6

end Cert.KernelIdeal.HostV

end
-- ==== Proof.KernelValue.lean ====
/-
  The kernel's program as a value: its result array ends holding the reference's own result term of the argument arrays.

  Reading backwards from the result: the second region leaves the decode stage of what it finds (DecRegion.lean); it finds the
  bias rows reshaped from the arguments, the two decode weights, and the aggregated activations, which are the shared
  aggregation `mid` of the first region's result along the edge list (HostReads.lean); the first region leaves the encode stage
  of what it finds (EncRegion.lean): the features, their neighbour sums, the inner weight, its bias row and the two halves of the
  outer weight. The reference computes the same three things in the same order (RefLayers.lean): the encode stage as one
  product of the concatenation [x | agg·fW + fb] with the whole outer weight, the same aggregation, the decode stage.
-/
import proofs.«123440_j62758062129644_1_alg».proof.Proof.RunValue
import proofs.«123440_j62758062129644_1_alg».proof.Proof.EncRegion
import proofs.«123440_j62758062129644_1_alg».proof.Proof.DecRegion
import proofs.«123440_j62758062129644_1_alg».proof.Proof.HostReads
import proofs.«123440_j62758062129644_1_alg».proof.Proof.RefLayers

set_option maxRecDepth 16384

noncomputable section

namespace Cert.KernelIdeal.ValueH

open Cert.KernelIdeal Cert.KernelIdeal.Gen Idealize.ShloMosaic Idealize.ShloMosaic.TcCoe Idealize.SL.Sem Idealize.ShloMosaic.ValueIdx
open Cert.Dense Cert.Gin
open Cert.ReferenceIdeal.ReadP (val_main_v72 val_main_v60 val_main_v19 val_main_v13)
open Cert.ReferenceIdeal.Layers (mid ref_enc ref_dec val_main_v60_eq_mid)

variable (m : (ℓ : Loc nD τ sig) → Buf (Elt Ideal) ℓ) (ρ : Dev nD → PrngReg)

/-- The result array after the run is the reference's result term of the launch contents of the ten arguments. -/
theorem result_eq (c : Dev nD) :
    W6 m ρ c (Proc.devRef .tc main_v62) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [HostV.W6_v62, DecV.dec_final (V5 m ρ) c]
  dsimp only [DecV.decOf]
  rw [HostV.V5_v58, HostV.V5_v59, HostV.V5_arg6, HostV.V5_v60, HostV.V5_arg8, HostV.V5_v61, HostV.V2_v17,
    EncV.enc_final (V1 m ρ) c]
  dsimp only [EncV.encOf]
  rw [HostV.V1_arg0, HostV.V1_v13, HostV.V1_arg2, HostV.V1_v16, HostV.V1_v14, HostV.V1_v15]
  simp only [shapeCast_row_apply]
  rw [ref_dec, val_main_v60_eq_mid, ref_enc _ _ _ _ _ slices_S1024x256_S512x256_0_0 slices_S1024x256_S512x256_512_0]

/-- The run of the kernel's program with its result named: every weakly fair execution terminates, nothing faulting, the result
    array at the reference's term of the arguments, the arguments as launched. -/
theorem run : θ_run defs (onTc (τ := τ) (main (F := Ideal))) ⟨m, fun _ => 0, ρ⟩ (fun r => ∀ c : Dev nD,
      r.2.mem ((c.tc : Thread nD τ).loc main_v62) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (RunV.run_value m ρ)

end Cert.KernelIdeal.ValueH

end
-- ==== Proof.lean ====
/-
  A two-layer graph network on 10000 nodes and 160000 edges, kernel against reference, over the extended reals.

  Both programs sum each node's neighbours' features along the edge list (agg), apply the inner linear layer
  h1 = agg·fW + fb, multiply the row-wise concatenation [x | h1] by the outer weight gW, aggregate the result along the edge list
  extended by one self-loop per node with the symmetric degree weights, add the bias gb, and decode:
  max ((·)·d1W + d1b, 0)·d2W + d2b. The reference does all of it with whole-array operations. The kernel's program keeps the two
  aggregations as the same whole-array operations and computes the two dense stretches in two regions of ten row blocks
  each, the first as x·gW₁ + h1·gW₂ over the two halves gW₁, gW₂ of the outer weight, in a narrower float format that over
  the extended reals is the identity.

  The two results agree because a sum over the 1024 columns of [x | h1] is the sum over its first 512 plus the sum over its
  last 512 (no finiteness of the inputs is used: only that addition is associative and commutative), because each dense stage
  acts row by row, so computing it on blocks of 1000 rows and laying the blocks side by side is computing it on the whole
  array, and because the aggregations between are the same function applied to equal arrays.

  The frames of the two kernel programs are the generated ones; the reference's frame is its run with the result dropped;
  the ideal pass rewrote nothing, so the idealization claim is trivial; the value claim pairs the kernel's run, its result read
  back to the reference's own term (KernelValue.lean), with the reference's run.
-/
import proofs.«123440_j62758062129644_1_alg».proof.Defs
import proofs.«123440_j62758062129644_1_alg».proof.Proof.Gen.Kernel
import proofs.«123440_j62758062129644_1_alg».proof.Proof.Gen.Kernel.Skeleton
import proofs.«123440_j62758062129644_1_alg».proof.Proof.Gen.Kernel.Launch
import proofs.«123440_j62758062129644_1_alg».proof.Proof.Gen.Kernel.Points
import proofs.«123440_j62758062129644_1_alg».proof.Proof.Gen.Kernel.Frame
import proofs.«123440_j62758062129644_1_alg».proof.Proof.Gen.KernelIdeal
import proofs.«123440_j62758062129644_1_alg».proof.Proof.Gen.KernelIdeal.Skeleton
import proofs.«123440_j62758062129644_1_alg».proof.Proof.Gen.KernelIdeal.Launch
import proofs.«123440_j62758062129644_1_alg».proof.Proof.Gen.KernelIdeal.Points
import proofs.«123440_j62758062129644_1_alg».proof.Proof.Gen.KernelIdeal.Frame
import proofs.«123440_j62758062129644_1_alg».proof.Proof.Gen.ReferenceIdeal
import proofs.«123440_j62758062129644_1_alg».proof.Proof.Gen.Pre_finite_inputs
import proofs.«123440_j62758062129644_1_alg».proof.Proof.RefRun
import proofs.«123440_j62758062129644_1_alg».proof.Proof.RefRead
import proofs.«123440_j62758062129644_1_alg».proof.Proof.KernelValue
import Idealize.ShloMosaic.Adequacy
import Idealize.ShloMosaic.Init

noncomputable section

namespace Cert.Proof

open Idealize.ShloMosaic Idealize.SL.Sem

/-- The word-level kernel program runs and leaves its arguments as launched: the generated frame. -/
theorem frame_k : Cert.frame_Kernel := fun m ρ _ => Cert.Kernel.Gen.frame m ρ

/-- The idealized kernel program runs and leaves its arguments as launched: the generated frame. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel. -/
theorem preserves : Cert.preserves_Kernel_KernelIdeal := trivial

/-- From memories that agree on the ten arguments both programs run, and both results are the reference's result term of those
    arguments: the kernel's by `KernelIdeal.ValueH.run`, the reference's by its own run. -/
theorem algebraic : Cert.algebraic_KernelIdeal_ReferenceIdeal := by
  intro m ρ m' ρ' _ hagree
  refine ⟨_, Cert.KernelIdeal.ValueH.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.ReadP.val_main_v72_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
